-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S128 .f32) (main_arg5 : FVec F S128x10 .f32) (main_arg6 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg5
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x10 .f32) (main_arg6 : FVec F S10 .f32) (main_arg7 : IVec S2x600000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S2000x128 : Shape := ⟨2, ![2000, 128]⟩
abbrev S650000x128 : Shape := ⟨2, ![650000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 98
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S2x600000, .i32⟩
  | .hbm, ⟨8, _⟩ => ⟨S50000, .i32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S650000, .i32⟩
  | .hbm, ⟨25, _⟩ => ⟨S650000, .i1⟩
  | .hbm, ⟨26, _⟩ => ⟨S_, .i32⟩
  | .hbm, ⟨27, _⟩ => ⟨S650000, .i32⟩
  | .hbm, ⟨28, _⟩ => ⟨S650000, .i32⟩
  | .hbm, ⟨29, _⟩ => ⟨S650000, .i32⟩
  | .hbm, ⟨30, _⟩ => ⟨S650000x1, .i32⟩
  | .hbm, ⟨31, _⟩ => ⟨S650000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S650000, .f32⟩
  | .hbm, ⟨42, _⟩ => ⟨S50000x128, .f32⟩
  | .hbm, ⟨43, _⟩ => ⟨S650000x1, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000x128, .f32⟩
  | .hbm, ⟨53, _⟩ => ⟨S650000x128, .f32⟩
  | .hbm, ⟨54, _⟩ => ⟨S650000x128, .f32⟩
  | .hbm, ⟨55, _⟩ => ⟨S_, .f32⟩
  | .hbm, ⟨56, _⟩ => ⟨S50000x128, .f32⟩
  | .hbm, ⟨57, _⟩ => ⟨S650000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S650000x1, .f32⟩
  | .hbm, ⟨63, _⟩ => ⟨S_, .i32⟩
  | .hbm, ⟨64, _⟩ => ⟨S650000, .i32⟩
  | .hbm, ⟨65, _⟩ => ⟨S650000, .i1⟩
  | .hbm, ⟨66, _⟩ => ⟨S_, .i32⟩
  | .hbm, ⟨67, _⟩ => ⟨S650000, .i32⟩
  | .hbm, ⟨68, _⟩ => ⟨S650000, .i32⟩
  | .hbm, ⟨69, _⟩ => ⟨S650000, .i32⟩
  | .hbm, ⟨70, _⟩ => ⟨S650000x1, .i32⟩
  | .hbm, ⟨71, _⟩ => ⟨S650000x128, .f32⟩
  | .hbm, ⟨72, _⟩ => ⟨S650000x128, .f32⟩
  | .hbm, ⟨73, _⟩ => ⟨S650000x128, .f32⟩
  | .hbm, ⟨74, _⟩ => ⟨S_, .f32⟩
  | .hbm, ⟨75, _⟩ => ⟨S50000x128, .f32⟩
  | .hbm, ⟨76, _⟩ => ⟨S650000x1, .i32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S_, .f32⟩
  | .hbm, ⟨81, _⟩ => ⟨S64x128, .f32⟩
  | .hbm, ⟨82, _⟩ => ⟨S50000x1, .i32⟩
  | .hbm, ⟨83, _⟩ => ⟨S64x128, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S64, .f32⟩
  | .hbm, ⟨88, _⟩ => ⟨S50000x1, .i32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x128, .f32⟩
  | .hbm, ⟨95, _⟩ => ⟨S64x128, .f32⟩
  | .hbm, ⟨96, _⟩ => ⟨S1x10, .f32⟩
  | .hbm, ⟨97, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S64x128, .f32⟩
  | .local _ .vmem, ⟨21, _⟩ => ⟨S128x10, .f32⟩
  | .local _ .vmem, ⟨22, _⟩ => ⟨S1x10, .f32⟩
  | .local _ .vmem, ⟨23, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S64x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S2x600000, .i32⟩
  | .hbm, ⟨8, _⟩ => ⟨S50000, .i32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S650000, .i32⟩
  | .hbm, ⟨25, _⟩ => ⟨S650000, .i1⟩
  | .hbm, ⟨26, _⟩ => ⟨S_, .i32⟩
  | .hbm, ⟨27, _⟩ => ⟨S650000, .i32⟩
  | .hbm, ⟨28, _⟩ => ⟨S650000, .i32⟩
  | .hbm, ⟨29, _⟩ => ⟨S650000, .i32⟩
  | .hbm, ⟨30, _⟩ => ⟨S650000x1, .i32⟩
  | .hbm, ⟨31, _⟩ => ⟨S650000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S650000, .f32⟩
  | .hbm, ⟨42, _⟩ => ⟨S50000x128, .f32⟩
  | .hbm, ⟨43, _⟩ => ⟨S650000x1, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000x128, .f32⟩
  | .hbm, ⟨53, _⟩ => ⟨S650000x128, .f32⟩
  | .hbm, ⟨54, _⟩ => ⟨S650000x128, .f32⟩
  | .hbm, ⟨55, _⟩ => ⟨S_, .f32⟩
  | .hbm, ⟨56, _⟩ => ⟨S50000x128, .f32⟩
  | .hbm, ⟨57, _⟩ => ⟨S650000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S650000x1, .f32⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x128, .f32⟩
  | .hbm, ⟨76, _⟩ => ⟨S650000x128, .f32⟩
  | .hbm, ⟨77, _⟩ => ⟨S650000x128, .f32⟩
  | .hbm, ⟨78, _⟩ => ⟨S_, .f32⟩
  | .hbm, ⟨79, _⟩ => ⟨S50000x128, .f32⟩
  | .hbm, ⟨80, _⟩ => ⟨S650000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S64x128, .f32⟩
  | .hbm, ⟨87, _⟩ => ⟨S50000x1, .i32⟩
  | .hbm, ⟨88, _⟩ => ⟨S64x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S64, .f32⟩
  | .hbm, ⟨93, _⟩ => ⟨S50000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x128, .f32⟩
  | .hbm, ⟨100, _⟩ => ⟨S64x128, .f32⟩
  | .hbm, ⟨101, _⟩ => ⟨S64x10, .f32⟩
  | .hbm, ⟨102, _⟩ => ⟨S1x10, .f32⟩
  | .hbm, ⟨103, _⟩ => ⟨S64x10, .f32⟩
  | .hbm, ⟨104, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Linear.lean ====
/-
  The two dense layers' products, read off the pipelines that compute them.

  Each of the two row-tiled kernels multiplies a 2000-row block of its left operand by the whole 128×128 weight
  matrix into the zero accumulator and writes the block of the product back; the 25 blocks tile the 50000 rows.
  Over the extended reals the array the pipeline leaves is therefore the whole product, entry (r, q) the sum over k
  of left (r, k) · weight (k, q): the host's `dot_general` of the two arrays as the region finds them.
-/
import proofs.«108684_j16466904612871_1_alg».proof.Proof.Gen.KernelIdeal.Frame
import proofs.«108684_j16466904612871_1_alg».proof.Proof.Gen.ReferenceIdeal
import proofs.«108684_j16466904612871_1_alg».proof.Proof.LibPlainDot
import Idealize.ShloMosaic.Lib.Pipeline.Value
import Idealize.ShloMosaic.Lib.ValueIdx
import Idealize.ShloMosaic.PureOps.Ideal.Laws

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when a region is entered: any contents at all
variable (V : (c : Dev nD) → (b : Ref sig .tc) → Buf (Elt Ideal) ((c : Thread nD τ).loc b))

/-- The zero offsets of an access to a whole block, as the body spells them. -/
private theorem zeroOff : (![0, 0] : Fin 2 → Nat) = fun _ => 0 :=
  funext fun a => by match a with | ⟨0, _⟩ => rfl | ⟨1, _⟩ => rfl

/-- The product of a 50000-row array with a 128×128 weight, as the host computes it. -/
private abbrev product (x : (⟨S50000x128, .f32⟩ : BufTy).Contents (Elt Ideal)) (w : (⟨S128x128, .f32⟩ : BufTy).Contents (Elt Ideal)) :
    (⟨S50000x128, .f32⟩ : BufTy).Contents (Elt Ideal) :=
  Host.dotGeneral (F := Ideal) (φ₁ := .f32) (φ₂ := .f32) Cert.ReferenceIdeal.dot_S50000x128_S128x128_S50000x128_1_0_0_1_n_n none x w

/-- Entry `(r, q)` of the host's product is the sum over `k` of left `(r, k)` times weight `(k, q)`. -/
private theorem product_apply (x : (⟨S50000x128, .f32⟩ : BufTy).Contents (Elt Ideal)) (w : (⟨S128x128, .f32⟩ : BufTy).Contents (Elt Ideal))
    (r : Fin 50000) (q : Fin 128) :
    product x w (ix2 r q) = ∑ k : Fin 128, x (ix2 r k) * w (ix2 k q) := by
  unfold product
  simp only [Host.dotGeneral]
  exact Cert.Lib.PlainDot.dotGeneral_apply (M := 50000) (K := 128) (N := 128) none _ x w r q

/-! ## The first layer -/

/-- Entry `(p, q)` of the first kernel's block product: over the extended reals the two roundings are the identity and
    the product into the zero accumulator is the sum over the contracted axis. -/
private theorem blockProduct0_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  exact Cert.Lib.PlainDot.matmul_zero_apply (M := 2000) (K := 128) (N := 128) none
    (truncf .bf16 x0 bitsLt_bf16_f32) (truncf .bf16 x1 bitsLt_bf16_f32) p q

/-- The printed index maps over the grid's 25 points: the left operand's and the output's block at point `t` is the
    `t`-th block of 2000 rows, the weight's is the whole matrix. -/
private theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- Every one of the 25 row blocks is some point's. -/
private theorem blockOnto0 : ∀ b : Fin 25, ∃ t : Fin cfg0.N, t.val = b.val :=
  (by decide +kernel : ∀ b : Fin 25, ∃ t : Fin grid0.N, t.val = b.val)

/-- What point `t` writes back is block `t` of the product of the two arrays as the region finds them: row `p` of the
    block is row `2000 t + p` of the left array, and both sides are the same sum over the contracted axis. -/
private theorem flushed0_eq (c : Dev nD) (t : Fin cfg0.N) :
    (dat0 (F := Ideal) V c).flushed 2 t
      = ((cfg0.win 2).blk t).view.read (Elt Ideal) (product (V c main_arg0) (V c main_arg1)) := by
  show (cfg0.win 2).cut (grid0.coords t) ((dat0 (F := Ideal) V c).after 2 t) = _
  rw [after0_2]
  unfold out0_2
  rw [View.canon_unit_zero zeroOff]
  simp only [View.ld_unit_zero (S := S2000x128) zeroOff, View.ld_unit_zero (S := S128x128) zeroOff]
  obtain ⟨e00, e01, e10, e11, e20, e21, ht⟩ := blockIndex0 t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hrow : 2000 * t.val + p.val < 50000 := by omega
  show k0_pay1 (F := Ideal) (iblk0 V c 0 t) (iblk0 V c 1 t) (ix2 p q)
    = product (V c main_arg0) (V c main_arg1) (((cfg0.win 2).blk t).view.emb (ix2 p q))
  have hout : ((cfg0.win 2).blk t).view.emb (ix2 p q) = ix2 (n0 := 50000) (n1 := 128) ⟨2000 * t.val + p.val, hrow⟩ q := by
    funext a; apply Fin.ext
    match a with
    | ⟨0, _⟩ => show win0_2.index t (0 : Fin 2) * 2000 + 1 * p.val = 2000 * t.val + p.val; omega
    | ⟨1, _⟩ => show win0_2.index t (1 : Fin 2) * 128 + 1 * q.val = q.val; omega
  rw [hout, product_apply, blockProduct0_apply]
  refine Finset.sum_congr rfl fun k _ => ?_
  have hl : iblk0 V c 0 t (ix2 p k) = V c main_arg0 (ix2 (n0 := 50000) (n1 := 128) ⟨2000 * t.val + p.val, hrow⟩ k) := by
    show V c main_arg0 (((cfg0.win 0).blk t).view.emb (ix2 p k)) = _
    refine congrArg _ (funext fun a => Fin.ext ?_)
    match a with
    | ⟨0, _⟩ => show win0_0.index t (0 : Fin 2) * 2000 + 1 * p.val = 2000 * t.val + p.val; omega
    | ⟨1, _⟩ => show win0_0.index t (1 : Fin 2) * 128 + 1 * k.val = k.val; omega
  have hr : iblk0 V c 1 t (ix2 k q) = V c main_arg1 (ix2 k q) := by
    show V c main_arg1 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [hl, hr]

/-- An index of the output array is in point `t`'s block iff each coordinate is in the block's range on its axis. -/
private theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v27).slice (win0_2.rect t)).set ↔ _
  rw [View.set_slice_whole, Rect.mem_set_unit]
  exact Iff.rfl

/-- The 25 blocks tile the 50000 rows: row `r` is in the block of point `r / 2000`. -/
private theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockOnto0 ⟨(i 0).val / 2000, by omega⟩
  have ht' : t.val = (i 0).val / 2000 := ht
  obtain ⟨e00, e01, e10, e11, e20, e21, -⟩ := blockIndex0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The first layer's product: after its pipeline the output array is `x · W1` of the arrays at region entry. -/
theorem value0 (c : Dev nD) :
    Eq (α := (⟨S50000x128, .f32⟩ : BufTy).Contents (Elt Ideal)) ((dat0 (F := Ideal) V c).arrAt 2 cfg0.N)
      (Host.dotGeneral (F := Ideal) (φ₁ := .f32) (φ₂ := .f32) Cert.ReferenceIdeal.dot_S50000x128_S128x128_S50000x128_1_0_0_1_n_n none
        (V c main_arg0) (V c main_arg1)) :=
  (dat0 (F := Ideal) V c).arrAt_eq_of_cover 2 (product (V c main_arg0) (V c main_arg1)) (fun t _ => flushed0_eq V c t) cover0

/-! ## The second layer -/

/-- Entry `(p, q)` of the second kernel's block product: the cast of the block to its own shape changes nothing, and the
    rest is the first kernel's arithmetic. -/
private theorem blockProduct2_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  rw [shapeCast_self]
  exact Cert.Lib.PlainDot.matmul_zero_apply (M := 2000) (K := 128) (N := 128) none
    (truncf .bf16 x0 bitsLt_bf16_f32) (truncf .bf16 x1 bitsLt_bf16_f32) p q

/-- The printed index maps over the grid's 25 points: the left operand's and the output's block at point `t` is the
    `t`-th block of 2000 rows, the weight's is the whole matrix. -/
private theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 25 :=
  (by decide +kernel : ∀ t : Fin grid2.N, _)

/-- Every one of the 25 row blocks is some point's. -/
private theorem blockOnto2 : ∀ b : Fin 25, ∃ t : Fin cfg2.N, t.val = b.val :=
  (by decide +kernel : ∀ b : Fin 25, ∃ t : Fin grid2.N, t.val = b.val)

/-- What point `t` writes back is block `t` of the product of the two arrays as the region finds them: row `p` of the
    block is row `2000 t + p` of the left array, and both sides are the same sum over the contracted axis. -/
private theorem flushed2_eq (c : Dev nD) (t : Fin cfg2.N) :
    (dat2 (F := Ideal) V c).flushed 2 t
      = ((cfg2.win 2).blk t).view.read (Elt Ideal) (product (V c main_v42) (V c main_arg3)) := by
  show (cfg2.win 2).cut (grid2.coords t) ((dat2 (F := Ideal) V c).after 2 t) = _
  rw [after2_2]
  unfold out2_2
  rw [View.canon_unit_zero zeroOff]
  simp only [View.ld_unit_zero (S := S2000x128) zeroOff, View.ld_unit_zero (S := S128x128) zeroOff]
  obtain ⟨e00, e01, e10, e11, e20, e21, ht⟩ := blockIndex2 t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hrow : 2000 * t.val + p.val < 50000 := by omega
  show k2_pay1 (F := Ideal) (iblk2 V c 0 t) (iblk2 V c 1 t) (ix2 p q)
    = product (V c main_v42) (V c main_arg3) (((cfg2.win 2).blk t).view.emb (ix2 p q))
  have hout : ((cfg2.win 2).blk t).view.emb (ix2 p q) = ix2 (n0 := 50000) (n1 := 128) ⟨2000 * t.val + p.val, hrow⟩ q := by
    funext a; apply Fin.ext
    match a with
    | ⟨0, _⟩ => show win2_2.index t (0 : Fin 2) * 2000 + 1 * p.val = 2000 * t.val + p.val; omega
    | ⟨1, _⟩ => show win2_2.index t (1 : Fin 2) * 128 + 1 * q.val = q.val; omega
  rw [hout, product_apply, blockProduct2_apply]
  refine Finset.sum_congr rfl fun k _ => ?_
  have hl : iblk2 V c 0 t (ix2 p k) = V c main_v42 (ix2 (n0 := 50000) (n1 := 128) ⟨2000 * t.val + p.val, hrow⟩ k) := by
    show V c main_v42 (((cfg2.win 0).blk t).view.emb (ix2 p k)) = _
    refine congrArg _ (funext fun a => Fin.ext ?_)
    match a with
    | ⟨0, _⟩ => show win2_0.index t (0 : Fin 2) * 2000 + 1 * p.val = 2000 * t.val + p.val; omega
    | ⟨1, _⟩ => show win2_0.index t (1 : Fin 2) * 128 + 1 * k.val = k.val; omega
  have hr : iblk2 V c 1 t (ix2 k q) = V c main_arg3 (ix2 k q) := by
    show V c main_arg3 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  rw [hl, hr]

/-- An index of the output array is in point `t`'s block iff each coordinate is in the block's range on its axis. -/
private theorem mem_blk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v43).slice (win2_2.rect t)).set ↔ _
  rw [View.set_slice_whole, Rect.mem_set_unit]
  exact Iff.rfl

/-- The 25 blocks tile the 50000 rows: row `r` is in the block of point `r / 2000`. -/
private theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blockOnto2 ⟨(i 0).val / 2000, by omega⟩
  have ht' : t.val = (i 0).val / 2000 := ht
  obtain ⟨e00, e01, e10, e11, e20, e21, -⟩ := blockIndex2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The second layer's product: after its pipeline the output array is `h · W2` of the arrays at region entry. -/
theorem value2 (c : Dev nD) :
    Eq (α := (⟨S50000x128, .f32⟩ : BufTy).Contents (Elt Ideal)) ((dat2 (F := Ideal) V c).arrAt 2 cfg2.N)
      (Host.dotGeneral (F := Ideal) (φ₁ := .f32) (φ₂ := .f32) Cert.ReferenceIdeal.dot_S50000x128_S128x128_S50000x128_1_0_0_1_n_n none
        (V c main_v42) (V c main_arg3)) :=
  (dat2 (F := Ideal) V c).arrAt_eq_of_cover 2 (product (V c main_v42) (V c main_arg3)) (fun t _ => flushed2_eq V c t) cover2

end Cert.KernelIdeal.Linear

end
-- ==== Proof.BiasAdd.lean ====
/-
  The two bias passes, read off the pipelines that compute them.

  Each row-tiled kernel adds the 1×128 bias row to every row of a 2000-row block (the first one then takes the
  maximum with zero) and writes the block back; the 25 blocks tile the 50000 rows. The array the pipeline leaves
  is therefore, entry (r, q), the aggregated entry plus bias (0, q) (clamped below at zero in the first pass): the
  host's broadcast, add and maximum of the arrays as the region finds them.
-/
import proofs.«108684_j16466904612871_1_alg».proof.Proof.Gen.KernelIdeal.Frame
import proofs.«108684_j16466904612871_1_alg».proof.Proof.Gen.ReferenceIdeal
import proofs.«108684_j16466904612871_1_alg».proof.Proof.LibPlainDot
import Idealize.ShloMosaic.Lib.Pipeline.Value
import Idealize.ShloMosaic.Lib.ValueIdx
import Idealize.ShloMosaic.PureOps.Ideal.Laws

noncomputable section

namespace Cert.KernelIdeal.BiasAdd

open Cert.KernelIdeal Cert.KernelIdeal.Gen Idealize.ShloMosaic Idealize.ShloMosaic.TcCoe Idealize.SL.Sem
open Idealize.ShloMosaic.ValueIdx
open Idealize.ShloMosaic.Pipeline (Dat)

/-! ## The payloads at an index -/

/-- The zero offsets of a whole-buffer access, however they are spelt. -/
private theorem hz : (![0, 0] : Fin 2 → Nat) = fun _ => 0 :=
  funext fun a => match a with | ⟨0, _⟩ => rfl | ⟨1, _⟩ => rfl

/-- The bias row broadcast down the 2000 rows of a block: entry (p, q) is the row's entry (0, q). -/
private theorem biasRow_apply (x1 : Vec Ideal S1x128 .f32) (p : Fin 2000) (q : Fin 128) :
    broadcastTo S2000x128 x1 broadcasts_S1x128_S2000x128 (ix2 p q) = x1 (ix2 (0 : Fin 1) q) :=
  broadcastTo_apply x1 broadcasts_S1x128_S2000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The second pass's payload at (p, q): the block's entry plus the bias row's entry (0, q). -/
private theorem pay3_apply (x0 : Vec Ideal S2000x128 .f32) (x1 : Vec Ideal S1x128 .f32) (p : Fin 2000) (q : Fin 128) :
    k3_pay1 x0 x1 (ix2 p q) = x0 (ix2 p q) + x1 (ix2 (0 : Fin 1) q) := by
  unfold k3_pay1
  rw [shapeCast_self, shapeCast_self, addf_apply, biasRow_apply]

/-- The same at an index of the block given whole. -/
private theorem pay3_block (x0 : Vec Ideal S2000x128 .f32) (x1 : Vec Ideal S1x128 .f32) (j : S2000x128.Idx) :
    k3_pay1 x0 x1 j = x0 j + x1 (ix2 (0 : Fin 1) (n1 := 128) ⟨(j 1).val, (j 1).isLt⟩) := by
  obtain ⟨p, q, rfl⟩ : ∃ (p : Fin 2000) (q : Fin 128), j = ix2 p q := ⟨j 0, j 1, eq_ix2 j⟩
  exact pay3_apply x0 x1 p q

/-- The first pass's payload at (p, q): the same sum, clamped below at zero. -/
private theorem pay1_apply (x0 : Vec Ideal S2000x128 .f32) (x1 : Vec Ideal S1x128 .f32) (p : Fin 2000) (q : Fin 128) :
    k1_pay1 x0 x1 (ix2 p q) = max (x0 (ix2 p q) + x1 (ix2 (0 : Fin 1) q)) (Ideal.ofBits .f32 0x00000000#32) := by
  unfold k1_pay1
  rw [shapeCast_self, shapeCast_self, maximumf_apply, addf_apply, biasRow_apply, broadcast_apply]
  rfl

/-- The same at an index of the block given whole. -/
private theorem pay1_block (x0 : Vec Ideal S2000x128 .f32) (x1 : Vec Ideal S1x128 .f32) (j : S2000x128.Idx) :
    k1_pay1 x0 x1 j
      = max (x0 j + x1 (ix2 (0 : Fin 1) (n1 := 128) ⟨(j 1).val, (j 1).isLt⟩)) (Ideal.ofBits .f32 0x00000000#32) := by
  obtain ⟨p, q, rfl⟩ : ∃ (p : Fin 2000) (q : Fin 128), j = ix2 p q := ⟨j 0, j 1, eq_ix2 j⟩
  exact pay1_apply x0 x1 p q

-- the TensorCore's buffer contents when a region is entered: any contents at all
variable (V : (c : Dev nD) → (b : Ref sig .tc) → Buf (Elt Ideal) ((c : Thread nD τ).loc b))

/-! ## Region 1 -/

/-- The printed index maps over the 25 grid points: the 2000-row windows sit at block (t, 0), the bias row at (0, 0). -/
private theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Input window 0's block at point `t` is rows `2000 t … 2000 t + 1999` of its array. -/
private theorem iblk1_0_apply (c : Dev nD) (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c main_v40 : S50000x128.Idx → Elt Ideal .f32) k := by
  obtain ⟨e0, e1, -⟩ := idx1 t
  unfold iblk1
  rw [View.read_apply]
  show V c main_v40 _ = V c main_v40 _
  congr 1
  funext a
  apply Fin.ext
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- Input window 1's block at every point is the whole bias row. -/
private theorem iblk1_1_apply (c : Dev nD) (t : Fin cfg1.N) (x : S1x128.Idx) (k : S1x128.Idx)
    (hk1 : (k 1).val = (x 1).val) :
    (iblk1 V c 1 t : Vec Ideal S1x128 .f32) x = (V c main_v41 : S1x128.Idx → Elt Ideal .f32) k := by
  obtain ⟨-, -, e2, e3, -⟩ := idx1 t
  unfold iblk1
  rw [View.read_apply]
  show V c main_v41 _ = V c main_v41 _
  congr 1
  funext a
  apply Fin.ext
  match a with
  | ⟨0, _⟩ =>
    show win1_1.index t 0 * 1 + 1 * (x 0).val = (k 0).val
    rw [e2]; have h0 : (x 0).val < 1 := (x 0).isLt; have h1 : (k 0).val < 1 := (k 0).isLt; omega
  | ⟨1, _⟩ => show win1_1.index t 1 * 128 + 1 * (x 1).val = (k 1).val; rw [e3, hk1]; omega

/-- The bias row broadcast over the 50000 rows, read at an index of the output's block `t`, is the bias block's
    entry in the same column. -/
private theorem bias1_at (c : Dev nD) (hb : Cert.ReferenceIdeal.S1x128.BroadcastsInDim Cert.ReferenceIdeal.S50000x128 ![0, 1])
    (t : Fin cfg1.N) (j : ((cfg1.win 2).xblock (grid1.coords t)).Idx) :
    iblk1 V c 1 t (ix2 (0 : Fin 1) (n1 := 128) ⟨(j 1).val, (j 1).isLt⟩)
      = broadcastInDim Cert.ReferenceIdeal.S50000x128 ![0, 1] hb (V c main_v41) (((cfg1.win 2).blk t).view.emb j) := by
  obtain ⟨-, -, -, -, -, e5⟩ := idx1 t
  refine (iblk1_1_apply V c t _ (ix2 (0 : Fin 1) (n1 := 128) ⟨(j 1).val, (j 1).isLt⟩) rfl).trans ?_
  exact (broadcastInDim_apply _ hb (V c main_v41) _ _ (fun a => match a with
    | ⟨0, _⟩ => by show (0 : Nat) = if (1 : Nat) = 1 then 0 else _; rw [if_pos rfl]
    | ⟨1, _⟩ => by
      show (j 1).val = if (128 : Nat) = 1 then 0 else win1_2.index t 1 * 128 + 1 * (j 1).val
      rw [if_neg (by decide), e5]; omega)).symm

/-- The aggregated array read at an index of the output's block `t` is input window 0's block entry there. -/
private theorem agg1_at (c : Dev nD) (t : Fin cfg1.N) (j : ((cfg1.win 2).xblock (grid1.coords t)).Idx) :
    iblk1 V c 0 t ((win1 2).xinj (grid1.coords t) j) = V c main_v40 (((cfg1.win 2).blk t).view.emb j) := by
  obtain ⟨-, -, -, -, e4, e5⟩ := idx1 t
  refine iblk1_0_apply V c t _ _ ?_ ?_
  · show win1_2.index t 0 * 2000 + 1 * (j 0).val = 2000 * t.val + (j 0).val; rw [e4]; omega
  · show win1_2.index t 1 * 128 + 1 * (j 1).val = (j 1).val; rw [e5]; omega

/-- An index of the array is in point `t`'s block iff each coordinate is in the block's range on its axis. -/
private theorem mem_blk1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v42).slice (win1_2.rect t)).set ↔ _
  rw [View.set_slice_whole, Rect.mem_set_unit]
  exact Iff.rfl

/-- The 25 blocks tile the array: row `r` lies in the block of point `r / 2000`. -/
private theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, e4, e5⟩ := idx1 t
  refine ⟨t, flush1_2 t, ?_⟩
  rw [mem_blk1]
  intro a
  match a with
  | ⟨0, _⟩ =>
    show win1_2.index t 0 * 2000 ≤ (i 0).val ∧ (i 0).val < win1_2.index t 0 * 2000 + 2000
    rw [e4, ht]; omega
  | ⟨1, _⟩ =>
    show win1_2.index t 1 * 128 ≤ (i 1).val ∧ (i 1).val < win1_2.index t 1 * 128 + 128
    rw [e5]; omega

/-- The zero constant broadcast over the array is zero at every index. -/
private theorem zero_at (h0 : Cert.ReferenceIdeal.S_.BroadcastsInDim Cert.ReferenceIdeal.S50000x128 ![]) (i : S50000x128.Idx) :
    broadcastInDim Cert.ReferenceIdeal.S50000x128 ![] h0 (constant (F := Ideal) Cert.ReferenceIdeal.S_ .f32 0x00000000#32) i
      = Ideal.ofBits .f32 0x00000000#32 :=
  broadcastInDim_apply _ h0 (constant (F := Ideal) Cert.ReferenceIdeal.S_ .f32 0x00000000#32) i (fun a => a.elim0)
    (fun a => a.elim0)

/-- What point `t` writes back is block `t` of the aggregated array plus the broadcast bias row, clamped below at zero. -/
private theorem flushed1_eq (c : Dev nD) (hb : Cert.ReferenceIdeal.S1x128.BroadcastsInDim Cert.ReferenceIdeal.S50000x128 ![0, 1])
    (h0 : Cert.ReferenceIdeal.S_.BroadcastsInDim Cert.ReferenceIdeal.S50000x128 ![]) (t : Fin cfg1.N) :
    (dat1 (F := Ideal) V c).flushed 2 t = ((cfg1.win 2).blk t).view.read (Elt Ideal)
      (maximumf (F := Ideal) (addf (V c main_v40) (broadcastInDim Cert.ReferenceIdeal.S50000x128 ![0, 1] hb (V c main_v41)))
        (broadcastInDim Cert.ReferenceIdeal.S50000x128 ![] h0 (constant Cert.ReferenceIdeal.S_ .f32 0x00000000#32))) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  funext j
  refine (pay1_block (iblk1 V c 0 t) (iblk1 V c 1 t) ((win1 2).xinj (grid1.coords t) j)).trans ?_
  rw [View.read_apply, maximumf_apply, addf_apply, zero_at]
  exact congrArg₂ max (congrArg₂ (· + ·) (agg1_at V c t j) (bias1_at V c hb t j)) rfl

/-- After the first bias pass the output array is `max (agg + bias row, 0)` of the arrays at region entry. -/
theorem value1 (c : Dev nD) (hb : Cert.ReferenceIdeal.S1x128.BroadcastsInDim Cert.ReferenceIdeal.S50000x128 ![0, 1])
    (h0 : Cert.ReferenceIdeal.S_.BroadcastsInDim Cert.ReferenceIdeal.S50000x128 ![]) :
    Eq (α := (⟨S50000x128, .f32⟩ : BufTy).Contents (Elt Ideal)) ((dat1 (F := Ideal) V c).arrAt 2 cfg1.N)
      (maximumf (F := Ideal) (addf (V c main_v40) (broadcastInDim Cert.ReferenceIdeal.S50000x128 ![0, 1] hb (V c main_v41)))
        (broadcastInDim Cert.ReferenceIdeal.S50000x128 ![] h0 (constant Cert.ReferenceIdeal.S_ .f32 0x00000000#32))) :=
  (dat1 (F := Ideal) V c).arrAt_eq_of_cover 2 _ (fun t _ => flushed1_eq V c hb h0 t) cover1

/-! ## Region 3 -/

/-- The printed index maps over the 25 grid points: the 2000-row windows sit at block (t, 0), the bias row at (0, 0). -/
private theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Input window 0's block at point `t` is rows `2000 t … 2000 t + 1999` of its array. -/
private theorem iblk3_0_apply (c : Dev nD) (t : Fin cfg3.N) (x : S2000x128.Idx) (k : S50000x128.Idx)
    (hk0 : (k 0).val = 2000 * t.val + (x 0).val) (hk1 : (k 1).val = (x 1).val) :
    (iblk3 V c 0 t : Vec Ideal S2000x128 .f32) x = (V c main_v56 : S50000x128.Idx → Elt Ideal .f32) k := by
  obtain ⟨e0, e1, -⟩ := idx3 t
  unfold iblk3
  rw [View.read_apply]
  show V c main_v56 _ = V c main_v56 _
  congr 1
  funext a
  apply Fin.ext
  match a with
  | ⟨0, _⟩ => show win3_0.index t 0 * 2000 + 1 * (x 0).val = (k 0).val; rw [e0, hk0]; omega
  | ⟨1, _⟩ => show win3_0.index t 1 * 128 + 1 * (x 1).val = (k 1).val; rw [e1, hk1]; omega

/-- Input window 1's block at every point is the whole bias row. -/
private theorem iblk3_1_apply (c : Dev nD) (t : Fin cfg3.N) (x : S1x128.Idx) (k : S1x128.Idx)
    (hk1 : (k 1).val = (x 1).val) :
    (iblk3 V c 1 t : Vec Ideal S1x128 .f32) x = (V c main_v57 : S1x128.Idx → Elt Ideal .f32) k := by
  obtain ⟨-, -, e2, e3, -⟩ := idx3 t
  unfold iblk3
  rw [View.read_apply]
  show V c main_v57 _ = V c main_v57 _
  congr 1
  funext a
  apply Fin.ext
  match a with
  | ⟨0, _⟩ =>
    show win3_1.index t 0 * 1 + 1 * (x 0).val = (k 0).val
    rw [e2]; have h0 : (x 0).val < 1 := (x 0).isLt; have h1 : (k 0).val < 1 := (k 0).isLt; omega
  | ⟨1, _⟩ => show win3_1.index t 1 * 128 + 1 * (x 1).val = (k 1).val; rw [e3, hk1]; omega

/-- The bias row broadcast over the 50000 rows, read at an index of the output's block `t`, is the bias block's
    entry in the same column. -/
private theorem bias3_at (c : Dev nD) (hb : Cert.ReferenceIdeal.S1x128.BroadcastsInDim Cert.ReferenceIdeal.S50000x128 ![0, 1])
    (t : Fin cfg3.N) (j : ((cfg3.win 2).xblock (grid3.coords t)).Idx) :
    iblk3 V c 1 t (ix2 (0 : Fin 1) (n1 := 128) ⟨(j 1).val, (j 1).isLt⟩)
      = broadcastInDim Cert.ReferenceIdeal.S50000x128 ![0, 1] hb (V c main_v57) (((cfg3.win 2).blk t).view.emb j) := by
  obtain ⟨-, -, -, -, -, e5⟩ := idx3 t
  refine (iblk3_1_apply V c t _ (ix2 (0 : Fin 1) (n1 := 128) ⟨(j 1).val, (j 1).isLt⟩) rfl).trans ?_
  exact (broadcastInDim_apply _ hb (V c main_v57) _ _ (fun a => match a with
    | ⟨0, _⟩ => by show (0 : Nat) = if (1 : Nat) = 1 then 0 else _; rw [if_pos rfl]
    | ⟨1, _⟩ => by
      show (j 1).val = if (128 : Nat) = 1 then 0 else win3_2.index t 1 * 128 + 1 * (j 1).val
      rw [if_neg (by decide), e5]; omega)).symm

/-- The aggregated array read at an index of the output's block `t` is input window 0's block entry there. -/
private theorem agg3_at (c : Dev nD) (t : Fin cfg3.N) (j : ((cfg3.win 2).xblock (grid3.coords t)).Idx) :
    iblk3 V c 0 t ((win3 2).xinj (grid3.coords t) j) = V c main_v56 (((cfg3.win 2).blk t).view.emb j) := by
  obtain ⟨-, -, -, -, e4, e5⟩ := idx3 t
  refine iblk3_0_apply V c t _ _ ?_ ?_
  · show win3_2.index t 0 * 2000 + 1 * (j 0).val = 2000 * t.val + (j 0).val; rw [e4]; omega
  · show win3_2.index t 1 * 128 + 1 * (j 1).val = (j 1).val; rw [e5]; omega

/-- An index of the array is in point `t`'s block iff each coordinate is in the block's range on its axis. -/
private theorem mem_blk3 (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v58).slice (win3_2.rect t)).set ↔ _
  rw [View.set_slice_whole, Rect.mem_set_unit]
  exact Iff.rfl

/-- The 25 blocks tile the array: row `r` lies in the block of point `r / 2000`. -/
private theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by omega⟩, rfl⟩
  obtain ⟨-, -, -, -, e4, e5⟩ := idx3 t
  refine ⟨t, flush3_2 t, ?_⟩
  rw [mem_blk3]
  intro a
  match a with
  | ⟨0, _⟩ =>
    show win3_2.index t 0 * 2000 ≤ (i 0).val ∧ (i 0).val < win3_2.index t 0 * 2000 + 2000
    rw [e4, ht]; omega
  | ⟨1, _⟩ =>
    show win3_2.index t 1 * 128 ≤ (i 1).val ∧ (i 1).val < win3_2.index t 1 * 128 + 128
    rw [e5]; omega

/-- What point `t` writes back is block `t` of the aggregated array plus the broadcast bias row. -/
private theorem flushed3_eq (c : Dev nD) (hb : Cert.ReferenceIdeal.S1x128.BroadcastsInDim Cert.ReferenceIdeal.S50000x128 ![0, 1])
    (t : Fin cfg3.N) :
    (dat3 (F := Ideal) V c).flushed 2 t = ((cfg3.win 2).blk t).view.read (Elt Ideal)
      (addf (F := Ideal) (φ := .f32) (V c main_v56) (broadcastInDim Cert.ReferenceIdeal.S50000x128 ![0, 1] hb (V c main_v57))) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  funext j
  refine (pay3_block (iblk3 V c 0 t) (iblk3 V c 1 t) ((win3 2).xinj (grid3.coords t) j)).trans ?_
  rw [View.read_apply, addf_apply]
  exact congrArg₂ (· + ·) (agg3_at V c t j) (bias3_at V c hb t j)

/-- After the second bias pass the output array is `agg + bias row` of the arrays at region entry. -/
theorem value3 (c : Dev nD) (hb : Cert.ReferenceIdeal.S1x128.BroadcastsInDim Cert.ReferenceIdeal.S50000x128 ![0, 1]) :
    Eq (α := (⟨S50000x128, .f32⟩ : BufTy).Contents (Elt Ideal)) ((dat3 (F := Ideal) V c).arrAt 2 cfg3.N)
      (addf (F := Ideal) (φ := .f32) (V c main_v56) (broadcastInDim Cert.ReferenceIdeal.S50000x128 ![0, 1] hb (V c main_v57))) :=
  (dat3 (F := Ideal) V c).arrAt_eq_of_cover 2 _ (fun t _ => flushed3_eq V c hb t) cover3

end Cert.KernelIdeal.BiasAdd

end
-- ==== Proof.Classifier.lean ====
/-
  The classifier, read off the one-point pipeline that computes it.

  The kernel multiplies the whole 64×128 pooled array by the whole 128×10 weight matrix into the zero accumulator,
  adds the 1×10 bias row to every row and writes the 64×10 result back; its grid has one point, whose block is the
  whole array. Over the extended reals entry (g, q) is the sum over k of pooled (g, k) · weight (k, q), plus
  bias (0, q): the host's `dot_general`, broadcast and add of the arrays as the region finds them.
-/
import proofs.«108684_j16466904612871_1_alg».proof.Proof.Gen.KernelIdeal.Frame
import proofs.«108684_j16466904612871_1_alg».proof.Proof.Gen.ReferenceIdeal
import proofs.«108684_j16466904612871_1_alg».proof.Proof.LibPlainDot
import Idealize.ShloMosaic.Lib.Pipeline.Value
import Idealize.ShloMosaic.Lib.ValueIdx
import Idealize.ShloMosaic.PureOps.Ideal.Laws

noncomputable section

namespace Cert.KernelIdeal.Classifier

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when a region is entered: any contents at all
variable (V : (c : Dev nD) → (b : Ref sig .tc) → Buf (Elt Ideal) ((c : Thread nD τ).loc b))

/-- The zero block offsets of a whole-array rectangle, as a constant function. -/
theorem zero_offsets : (![0, 0] : Fin 2 → Nat) = fun _ => 0 := funext fun a => by fin_cases a <;> rfl

/-- The body's payload at entry `(p, q)`: row `p` of the first block against column `q` of the second, summed over
    the 128 contraction positions, plus entry `q` of the one-row third block. The two truncations are the identity
    over the extended reals and both shape casts are to the operand's own shape. -/
theorem payload_apply (x0 : Vec Ideal S64x128 .f32) (x1 : Vec Ideal S128x10 .f32) (x2 : Vec Ideal S1x10 .f32)
    (p : Fin 64) (q : Fin 10) :
    k4_pay1 (F := Ideal) x0 x1 x2 (ix2 p q)
      = (∑ k : Fin 128, x0 (ix2 p k) * x1 (ix2 k q)) + x2 (ix2 (0 : Fin 1) q) := by
  unfold k4_pay1
  rw [addf_apply, shapeCast_self, shapeCast_self]
  rw [broadcastTo_apply x2 broadcasts_S1x10_S64x10 (ix2 p q) (ix2 (0 : Fin 1) q) (fun a => match a with
    | ⟨0, _⟩ => by show 0 = if (1 : Nat) = 1 then 0 else _; rw [if_pos rfl]
    | ⟨1, _⟩ => by show q.val = if (10 : Nat) = 1 then 0 else q.val; rw [if_neg (by decide)])]
  exact congrArg (· + x2 (ix2 (0 : Fin 1) q))
    (Cert.Lib.PlainDot.matmul_zero_apply (M := 64) (K := 128) (N := 10) none
      (truncf .bf16 x0 bitsLt_bf16_f32) (truncf .bf16 x1 bitsLt_bf16_f32) p q)

/-- The host's classifier at entry `(p, q)`: the same sum over the contraction positions plus the bias row's
    entry `q` (the broadcast along the rows reads row 0 of its one-row operand). -/
theorem host_apply (A : (⟨S64x128, .f32⟩ : BufTy).Contents (Elt Ideal)) (B : (⟨S128x10, .f32⟩ : BufTy).Contents (Elt Ideal))
    (C : (⟨S1x10, .f32⟩ : BufTy).Contents (Elt Ideal))
    (hb : Cert.ReferenceIdeal.S1x10.BroadcastsInDim Cert.ReferenceIdeal.S64x10 ![0, 1]) (p : Fin 64) (q : Fin 10) :
    addf (F := Ideal) (Host.dotGeneral (φ₁ := .f32) (φ₂ := .f32) Cert.ReferenceIdeal.dot_S64x128_S128x10_S64x10_1_0_0_1_n_n none A B)
        (broadcastInDim Cert.ReferenceIdeal.S64x10 ![0, 1] hb C) (ix2 p q)
      = (∑ k : Fin 128, A (ix2 p k) * B (ix2 k q)) + C (ix2 (0 : Fin 1) q) := by
  rw [addf_apply]
  simp only [Host.dotGeneral]
  rw [broadcastInDim_apply ![0, 1] hb C (ix2 p q) (ix2 (0 : Fin 1) q) (fun a => match a with
    | ⟨0, _⟩ => by show 0 = if (1 : Nat) = 1 then 0 else _; rw [if_pos rfl]
    | ⟨1, _⟩ => by show q.val = if (10 : Nat) = 1 then 0 else q.val; rw [if_neg (by decide)])]
  exact congrArg (· + C (ix2 (0 : Fin 1) q))
    (Cert.Lib.PlainDot.dotGeneral_apply (M := 64) (K := 128) (N := 10) none _ A B p q)

/-- The printed index maps, decided over the one-point grid: every window's block is block (0, 0). -/
theorem block_indices : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the point writes back is its block of the host's classifier of the arrays at region entry: the block is the
    whole array, and each input block is its whole array. -/
theorem flushed_eq (c : Dev nD) (hb : Cert.ReferenceIdeal.S1x10.BroadcastsInDim Cert.ReferenceIdeal.S64x10 ![0, 1])
    (t : Fin cfg4.N) :
    (dat4 (F := Ideal) V c).flushed 3 t = ((cfg4.win 3).blk t).view.read (Elt Ideal)
      (addf (F := Ideal) (Host.dotGeneral (φ₁ := .f32) (φ₂ := .f32) Cert.ReferenceIdeal.dot_S64x128_S128x10_S64x10_1_0_0_1_n_n none
        (V c main_v70) (V c main_arg5)) (broadcastInDim Cert.ReferenceIdeal.S64x10 ![0, 1] hb (V c main_v71))) := by
  show (cfg4.win 3).cut (grid4.coords t) ((dat4 (F := Ideal) V c).after 3 t) = _
  rw [after4_3]
  unfold out4_3
  rw [View.canon_unit_zero zero_offsets]
  simp only [View.ld_unit_zero (S := S64x128) zero_offsets, View.ld_unit_zero (S := S128x10) zero_offsets,
    View.ld_unit_zero (S := S1x10) zero_offsets]
  obtain ⟨a00, a01, a10, a11, a20, a21, a30, a31⟩ := block_indices t
  funext j
  obtain ⟨p, q, rfl⟩ : ∃ (p : Fin 64) (q : Fin 10), j = ix2 p q := ⟨j 0, j 1, eq_ix2 j⟩
  refine (payload_apply (iblk4 V c 0 t) (iblk4 V c 1 t) (iblk4 V c 2 t) p q).trans ?_
  have e3 : ((cfg4.win 3).blk t).view.emb (ix2 p q) = ix2 p q := by
    funext a; apply Fin.ext
    match a with
    | ⟨0, _⟩ => show win4_3.index t (0 : Fin 2) * 64 + 1 * p.val = p.val; omega
    | ⟨1, _⟩ => show win4_3.index t (1 : Fin 2) * 10 + 1 * q.val = q.val; omega
  have h0 : ∀ k : Fin 128, iblk4 V c 0 t (ix2 p k) = V c main_v70 (ix2 p k) := fun k => by
    show V c main_v70 (((cfg4.win 0).blk t).view.emb (ix2 p k)) = V c main_v70 (ix2 p k)
    refine congrArg _ (funext fun a => Fin.ext ?_)
    match a with
    | ⟨0, _⟩ => show win4_0.index t (0 : Fin 2) * 64 + 1 * p.val = p.val; omega
    | ⟨1, _⟩ => show win4_0.index t (1 : Fin 2) * 128 + 1 * k.val = k.val; omega
  have h1 : ∀ k : Fin 128, iblk4 V c 1 t (ix2 k q) = V c main_arg5 (ix2 k q) := fun k => by
    show V c main_arg5 (((cfg4.win 1).blk t).view.emb (ix2 k q)) = V c main_arg5 (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 10 + 1 * q.val = q.val; omega
  have h2 : iblk4 V c 2 t (ix2 (0 : Fin 1) q) = V c main_v71 (ix2 (0 : Fin 1) q) := by
    show V c main_v71 (((cfg4.win 2).blk t).view.emb (ix2 (0 : Fin 1) q)) = V c main_v71 (ix2 (0 : Fin 1) q)
    refine congrArg _ (funext fun a => Fin.ext ?_)
    match a with
    | ⟨0, _⟩ => show win4_2.index t (0 : Fin 2) * 1 + 1 * 0 = 0; omega
    | ⟨1, _⟩ => show win4_2.index t (1 : Fin 2) * 10 + 1 * q.val = q.val; omega
  rw [View.read_apply, e3, host_apply, h2]
  exact congrArg (· + V c main_v71 (ix2 (0 : Fin 1) q)) (Finset.sum_congr rfl fun k _ => by rw [h0, h1])

/-- An index of the output array is in the point's block iff each coordinate is in the block's range on its axis. -/
theorem mem_block (t : Fin cfg4.N) (i : S64x10.Idx) :
    i ∈ ((cfg4.win 3).blk t).view.set ↔ ∀ a : Fin 2, win4_3.index t a * S64x10.size a ≤ (i a).val
      ∧ (i a).val < win4_3.index t a * S64x10.size a + S64x10.size a := by
  show i ∈ ((View.whole main_v72).slice (win4_3.rect t)).set ↔ _
  rw [View.set_slice_whole, Rect.mem_set_unit]
  exact Iff.rfl

/-- The single point's block is the whole 64×10 array. -/
theorem cover (i : S64x10.Idx) : ∃ t : Fin cfg4.N, (cfg4.win 3).flush t = true ∧ i ∈ ((cfg4.win 3).blk t).view.set := by
  refine ⟨t4_0, flush4_3 t4_0, ?_⟩
  rw [mem_block]
  obtain ⟨-, -, -, -, -, -, a30, a31⟩ := block_indices t4_0
  have hi0 : (i 0).val < 64 := (i 0).isLt
  have hi1 : (i 1).val < 10 := (i 1).isLt
  intro a
  match a with
  | ⟨0, _⟩ => show win4_3.index t4_0 (0 : Fin 2) * 64 ≤ (i 0).val ∧ (i 0).val < win4_3.index t4_0 (0 : Fin 2) * 64 + 64; omega
  | ⟨1, _⟩ => show win4_3.index t4_0 (1 : Fin 2) * 10 ≤ (i 1).val ∧ (i 1).val < win4_3.index t4_0 (1 : Fin 2) * 10 + 10; omega

/-- After the classifier's pipeline the output array is `pooled · Wlin + bias row` of the arrays at region entry. -/
theorem value4 (c : Dev nD) (hb : Cert.ReferenceIdeal.S1x10.BroadcastsInDim Cert.ReferenceIdeal.S64x10 ![0, 1]) :
    Eq (α := (⟨S64x10, .f32⟩ : BufTy).Contents (Elt Ideal)) ((dat4 (F := Ideal) V c).arrAt 3 cfg4.N)
      (addf (F := Ideal) (Host.dotGeneral (φ₁ := .f32) (φ₂ := .f32) Cert.ReferenceIdeal.dot_S64x128_S128x10_S64x10_1_0_0_1_n_n none
        (V c main_v70) (V c main_arg5)) (broadcastInDim Cert.ReferenceIdeal.S64x10 ![0, 1] hb (V c main_v71))) :=
  (dat4 (F := Ideal) V c).arrAt_eq_of_cover 3 _ (fun t _ => flushed_eq V c hb t) cover

end Cert.KernelIdeal.Classifier

end
-- ==== Proof.KernelValue.lean ====
/-
  The kernel program's result, stage by stage, as the reference's stages of the argument arrays.

  @main of the kernel program is nine segments: host stretches (index bookkeeping, the degree normalisation, the two
  gather / scatter-add aggregations, the mean pool) and five pipelined regions (the two dense products, the two bias
  passes, the classifier). The contents of the TensorCore's buffers at each segment boundary are a fold from the launch
  memory. Walking that fold from the launch to the return, each buffer a later segment reads is shown to hold the
  value the reference program's corresponding operation computes from the same argument arrays: a host stretch applies
  the very operations the reference applies, and a region leaves in its output array the reference's host operation of
  the arrays it finds (the three region modules). The last boundary's contents of the result buffer are then the
  reference's last stage.
-/
import proofs.«108684_j16466904612871_1_alg».proof.Proof.Gen.KernelIdeal.Frame
import proofs.«108684_j16466904612871_1_alg».proof.Proof.Gen.ReferenceIdeal.Read
import proofs.«108684_j16466904612871_1_alg».proof.Proof.Linear
import proofs.«108684_j16466904612871_1_alg».proof.Proof.BiasAdd
import proofs.«108684_j16466904612871_1_alg».proof.Proof.Classifier
import Idealize.ShloMosaic.Lib.StableHlo.Run
import Idealize.ShloMosaic.Lib.Pipeline.Value

noncomputable section

namespace Cert.KernelIdeal.Stages

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## The argument arrays as launched -/

abbrev a0 (c : Dev nD) : (⟨S50000x128, .f32⟩ : BufTy).Contents (Elt Ideal) := m ((c : Thread nD τ).loc main_arg0)
abbrev a1 (c : Dev nD) : (⟨S128x128, .f32⟩ : BufTy).Contents (Elt Ideal) := m ((c : Thread nD τ).loc main_arg1)
abbrev a2 (c : Dev nD) : (⟨S128, .f32⟩ : BufTy).Contents (Elt Ideal) := m ((c : Thread nD τ).loc main_arg2)
abbrev a3 (c : Dev nD) : (⟨S128x128, .f32⟩ : BufTy).Contents (Elt Ideal) := m ((c : Thread nD τ).loc main_arg3)
abbrev a4 (c : Dev nD) : (⟨S128, .f32⟩ : BufTy).Contents (Elt Ideal) := m ((c : Thread nD τ).loc main_arg4)
abbrev a5 (c : Dev nD) : (⟨S128x10, .f32⟩ : BufTy).Contents (Elt Ideal) := m ((c : Thread nD τ).loc main_arg5)
abbrev a6 (c : Dev nD) : (⟨S10, .f32⟩ : BufTy).Contents (Elt Ideal) := m ((c : Thread nD τ).loc main_arg6)
abbrev a7 (c : Dev nD) : (⟨S2x600000, .i32⟩ : BufTy).Contents (Elt Ideal) := m ((c : Thread nD τ).loc main_arg7)
abbrev a8 (c : Dev nD) : (⟨S50000, .i32⟩ : BufTy).Contents (Elt Ideal) := m ((c : Thread nD τ).loc main_arg8)

/-! ## A vector as a one-row matrix

The kernel program reshapes a bias vector `[n]` to `[1, n]`; the reference broadcasts it there along axis 1. Entry
`(0, q)` of either is entry `q` of the vector. -/

theorem row_of_vector {α : Type} {n : Nat} (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  have hq : (j 1).val < n := (j 1).isLt
  have e1 : shapeCast ⟨2, ![1, n]⟩ x h j = x (ValueIdx.ix1 (n := n) ⟨(j 1).val, hq⟩) :=
    shapeCast_apply x h j _ (by
      have h0 : (j 0).val = 0 := by have := (j 0).isLt; simp at this; omega
      rw [Shape.rowMajor_val_one, Shape.rowMajor_val_two, h0]
      show (j 1).val = 0 * n + (j 1).val
      omega)
  have e2 : broadcastInDim ⟨2, ![1, n]⟩ ![1] h' x j = x (ValueIdx.ix1 (n := n) ⟨(j 1).val, hq⟩) :=
    broadcastInDim_apply _ h' x j _ (fun a => by
      match a with
      | ⟨0, _⟩ => show (j 1).val = if n = 1 then 0 else (j 1).val; rw [if_neg hn])
  rw [e1, e2]

/-! ## Before the first region: the edge lists with self loops and the normalisation -/

set_option maxHeartbeats 4000000 in
theorem W1_v3 (c : Dev nD) : W1 m ρ c (Proc.devRef .tc main_v3) = val_main_v3 (F := Ideal) (a7 m c) := by
  show StableHlo.after hostOps0 (W0 m ρ c) (Proc.devRef .tc main_v3) = _
  after_results_simp <;> rfl

set_option maxHeartbeats 4000000 in
theorem W1_v6 (c : Dev nD) : W1 m ρ c (Proc.devRef .tc main_v6) = val_main_v6 (F := Ideal) (a7 m c) := by
  show StableHlo.after hostOps0 (W0 m ρ c) (Proc.devRef .tc main_v6) = _
  after_results_simp <;> rfl

set_option maxHeartbeats 4000000 in
theorem W1_v26 (c : Dev nD) : W1 m ρ c (Proc.devRef .tc main_v26) = val_main_v26 (F := Ideal) (a7 m c) := by
  show StableHlo.after hostOps0 (W0 m ρ c) (Proc.devRef .tc main_v26) = _
  after_results_simp <;> rfl

set_option maxHeartbeats 4000000 in
/-- No operation before the first region writes an argument array. -/
theorem W1_keeps (c : Dev nD) :
    W1 m ρ c (Proc.devRef .tc main_arg0) = a0 m c ∧ W1 m ρ c (Proc.devRef .tc main_arg1) = a1 m c
    ∧ W1 m ρ c (Proc.devRef .tc main_arg2) = a2 m c ∧ W1 m ρ c (Proc.devRef .tc main_arg3) = a3 m c
    ∧ W1 m ρ c (Proc.devRef .tc main_arg4) = a4 m c ∧ W1 m ρ c (Proc.devRef .tc main_arg5) = a5 m c
    ∧ W1 m ρ c (Proc.devRef .tc main_arg6) = a6 m c ∧ W1 m ρ c (Proc.devRef .tc main_arg8) = a8 m c := by
  refine ⟨?_, ?_, ?_, ?_, ?_, ?_, ?_, ?_⟩ <;>
    (show StableHlo.after hostOps0 (W0 m ρ c) _ = _; after_results_simp <;> rfl)

/-! ## What rides unchanged past the segments that do not write it

The two edge lists, the edge weights and six argument arrays are read again by later segments. -/

/-- The contents `W` hold the edge lists and weights the reference computes, and the arguments as launched. -/
def Carried (c : Dev nD) (W : Valuation τ sig (Elt Ideal)) : Prop :=
  W (Proc.devRef .tc main_v3) = val_main_v3 (F := Ideal) (a7 m c)
  ∧ W (Proc.devRef .tc main_v6) = val_main_v6 (F := Ideal) (a7 m c)
  ∧ W (Proc.devRef .tc main_v26) = val_main_v26 (F := Ideal) (a7 m c)
  ∧ W (Proc.devRef .tc main_arg2) = a2 m c ∧ W (Proc.devRef .tc main_arg3) = a3 m c
  ∧ W (Proc.devRef .tc main_arg4) = a4 m c ∧ W (Proc.devRef .tc main_arg5) = a5 m c
  ∧ W (Proc.devRef .tc main_arg6) = a6 m c ∧ W (Proc.devRef .tc main_arg8) = a8 m c

/-- The buffers `Carried` speaks of. -/
abbrev carriedRefs : List (Ref sig .tc) :=
  [main_v3, main_v6, main_v26, main_arg2, main_arg3, main_arg4, main_arg5, main_arg6, main_arg8]

/-- Contents that agree with carried ones on those buffers are carried. -/
theorem Carried.of_eq {c : Dev nD} {W W' : Valuation τ sig (Elt Ideal)} (h : Carried m c W)
    (e : ∀ b ∈ carriedRefs, W' (Proc.devRef .tc b) = W (Proc.devRef .tc b)) : Carried m c W' := by
  obtain ⟨h3, h6, h26, e2, e3, e4, e5, e6, e8⟩ := h
  exact ⟨(e main_v3 (by simp)).trans h3, (e main_v6 (by simp)).trans h6, (e main_v26 (by simp)).trans h26,
    (e main_arg2 (by simp)).trans e2, (e main_arg3 (by simp)).trans e3, (e main_arg4 (by simp)).trans e4,
    (e main_arg5 (by simp)).trans e5, (e main_arg6 (by simp)).trans e6, (e main_arg8 (by simp)).trans e8⟩

theorem carried1 (c : Dev nD) : Carried m c (W1 m ρ c) := by
  obtain ⟨-, -, e2, e3, e4, e5, e6, e8⟩ := W1_keeps m ρ c
  exact ⟨W1_v3 m ρ c, W1_v6 m ρ c, W1_v26 m ρ c, e2, e3, e4, e5, e6, e8⟩

/-- The first product's region stages none of them. -/
theorem carried2 (c : Dev nD) : Carried m c (W2 m ρ c) :=
  (carried1 m ρ c).of_eq m fun b hb => by
    simp only [List.mem_cons, List.not_mem_nil, or_false] at hb
    rcases hb with rfl | rfl | rfl | rfl | rfl | rfl | rfl | rfl | rfl <;> exact W2_of_ne m ρ c _ (by decide)

set_option maxHeartbeats 4000000 in
/-- The first aggregation's host stretch writes none of them. -/
theorem carried3 (c : Dev nD) : Carried m c (W3 m ρ c) :=
  (carried2 m ρ c).of_eq m fun b hb => by
    simp only [List.mem_cons, List.not_mem_nil, or_false] at hb
    rcases hb with rfl | rfl | rfl | rfl | rfl | rfl | rfl | rfl | rfl <;>
      (show StableHlo.after hostOps1 (W2 m ρ c) _ = _; after_results_simp)

/-- The first bias pass stages none of them. -/
theorem carried4 (c : Dev nD) : Carried m c (W4 m ρ c) :=
  (carried3 m ρ c).of_eq m fun b hb => by
    simp only [List.mem_cons, List.not_mem_nil, or_false] at hb
    rcases hb with rfl | rfl | rfl | rfl | rfl | rfl | rfl | rfl | rfl <;> exact W4_of_ne m ρ c _ (by decide)

/-- The second product stages the second weight matrix as an input, which it never writes back, and none of the others. -/
theorem carried5 (c : Dev nD) : Carried m c (W5 m ρ c) :=
  (carried4 m ρ c).of_eq m fun b hb => by
    simp only [List.mem_cons, List.not_mem_nil, or_false] at hb
    rcases hb with rfl | rfl | rfl | rfl | rfl | rfl | rfl | rfl | rfl <;>
      first
        | exact W5_of_ne m ρ c _ (by decide)
        | exact (W5_arr m ρ c 1).trans (((dat2 (V4 m ρ) c).arrAt_in 1 rfl _).trans (A_eq2 (V4 m ρ) c 1))

set_option maxHeartbeats 4000000 in
/-- The second aggregation's host stretch writes none of them. -/
theorem carried6 (c : Dev nD) : Carried m c (W6 m ρ c) :=
  (carried5 m ρ c).of_eq m fun b hb => by
    simp only [List.mem_cons, List.not_mem_nil, or_false] at hb
    rcases hb with rfl | rfl | rfl | rfl | rfl | rfl | rfl | rfl | rfl <;>
      (show StableHlo.after hostOps3 (W5 m ρ c) _ = _; after_results_simp)

/-- The second bias pass stages none of them. -/
theorem carried7 (c : Dev nD) : Carried m c (W7 m ρ c) :=
  (carried6 m ρ c).of_eq m fun b hb => by
    simp only [List.mem_cons, List.not_mem_nil, or_false] at hb
    rcases hb with rfl | rfl | rfl | rfl | rfl | rfl | rfl | rfl | rfl <;> exact W7_of_ne m ρ c _ (by decide)

set_option maxHeartbeats 4000000 in
/-- The mean pool's host stretch writes none of them. -/
theorem carried8 (c : Dev nD) : Carried m c (W8 m ρ c) :=
  (carried7 m ρ c).of_eq m fun b hb => by
    simp only [List.mem_cons, List.not_mem_nil, or_false] at hb
    rcases hb with rfl | rfl | rfl | rfl | rfl | rfl | rfl | rfl | rfl <;>
      (show StableHlo.after hostOps4 (W7 m ρ c) _ = _; after_results_simp)

/-! ## The values, boundary by boundary -/

/-- The first layer's product. -/
theorem W2_v27 (c : Dev nD) : W2 m ρ c (Proc.devRef .tc main_v27) = val_main_v27 (F := Ideal) (a0 m c) (a1 m c) := by
  obtain ⟨e0, e1, -⟩ := W1_keeps m ρ c
  refine (W2_arr m ρ c 2).trans ?_
  refine (Linear.value0 (V1 m ρ) c).trans ?_
  dsimp only [V1]
  rw [e0, e1]
  rfl

set_option maxHeartbeats 4000000 in
/-- The first aggregation: the gather, scaling and scatter-add of that product by the edge lists and weights. -/
theorem W3_v40 (c : Dev nD) :
    W3 m ρ c (Proc.devRef .tc main_v40) = val_main_v40 (F := Ideal) (a0 m c) (a1 m c) (a7 m c) := by
  obtain ⟨h3, h6, h26, -⟩ := carried2 m ρ c
  show StableHlo.after hostOps1 (W2 m ρ c) (Proc.devRef .tc main_v40) = _
  after_results_simp
  rw [W2_v27 m ρ c, h3, h6, h26]
  rfl

set_option maxHeartbeats 4000000 in
/-- The first bias as a row. -/
theorem W3_v41 (c : Dev nD) : W3 m ρ c (Proc.devRef .tc main_v41) = val_main_v41 (F := Ideal) (a2 m c) := by
  obtain ⟨-, -, -, e2, -⟩ := carried2 m ρ c
  show StableHlo.after hostOps1 (W2 m ρ c) (Proc.devRef .tc main_v41) = _
  after_results_simp
  rw [e2]
  unfold val_main_v41
  exact row_of_vector (n := 128) (by decide) _ _ _

/-- The first layer's activations. -/
theorem W4_v42 (c : Dev nD) :
    W4 m ρ c (Proc.devRef .tc main_v42) = val_main_v44 (F := Ideal) (a0 m c) (a1 m c) (a2 m c) (a7 m c) := by
  refine (W4_arr m ρ c 2).trans ?_
  refine (BiasAdd.value1 (V3 m ρ) c Cert.ReferenceIdeal.Facts₀.bcast_S1x128_S50000x128_0_1
    Cert.ReferenceIdeal.Facts₀.bcast_S_S50000x128).trans ?_
  dsimp only [V3]
  rw [W3_v40 m ρ c, W3_v41 m ρ c]
  rfl

/-- The second layer's product. -/
theorem W5_v43 (c : Dev nD) :
    W5 m ρ c (Proc.devRef .tc main_v43) = val_main_v45 (F := Ideal) (a0 m c) (a1 m c) (a2 m c) (a3 m c) (a7 m c) := by
  obtain ⟨-, -, -, -, e3, -⟩ := carried4 m ρ c
  refine (W5_arr m ρ c 2).trans ?_
  refine (Linear.value2 (V4 m ρ) c).trans ?_
  dsimp only [V4]
  rw [W4_v42 m ρ c, e3]
  rfl

set_option maxHeartbeats 4000000 in
/-- The second aggregation. -/
theorem W6_v56 (c : Dev nD) :
    W6 m ρ c (Proc.devRef .tc main_v56) = val_main_v58 (F := Ideal) (a0 m c) (a1 m c) (a2 m c) (a3 m c) (a7 m c) := by
  obtain ⟨h3, h6, h26, -⟩ := carried5 m ρ c
  show StableHlo.after hostOps3 (W5 m ρ c) (Proc.devRef .tc main_v56) = _
  after_results_simp
  rw [W5_v43 m ρ c, h3, h6, h26]
  rfl

set_option maxHeartbeats 4000000 in
/-- The second bias as a row. -/
theorem W6_v57 (c : Dev nD) : W6 m ρ c (Proc.devRef .tc main_v57) = val_main_v59 (F := Ideal) (a4 m c) := by
  obtain ⟨-, -, -, -, -, e4, -⟩ := carried5 m ρ c
  show StableHlo.after hostOps3 (W5 m ρ c) (Proc.devRef .tc main_v57) = _
  after_results_simp
  rw [e4]
  unfold val_main_v59
  exact row_of_vector (n := 128) (by decide) _ _ _

/-- The second layer's output. -/
theorem W7_v58 (c : Dev nD) :
    W7 m ρ c (Proc.devRef .tc main_v58)
      = val_main_v61 (F := Ideal) (a0 m c) (a1 m c) (a2 m c) (a3 m c) (a4 m c) (a7 m c) := by
  refine (W7_arr m ρ c 2).trans ?_
  refine (BiasAdd.value3 (V6 m ρ) c Cert.ReferenceIdeal.Facts₀.bcast_S1x128_S50000x128_0_1).trans ?_
  dsimp only [V6]
  rw [W6_v56 m ρ c, W6_v57 m ρ c]
  rfl

set_option maxHeartbeats 4000000 in
/-- The mean pool over the graphs. -/
theorem W8_v70 (c : Dev nD) :
    W8 m ρ c (Proc.devRef .tc main_v70)
      = val_main_v73 (F := Ideal) (a0 m c) (a1 m c) (a2 m c) (a3 m c) (a4 m c) (a7 m c) (a8 m c) := by
  obtain ⟨-, -, -, -, -, -, -, -, e8⟩ := carried7 m ρ c
  show StableHlo.after hostOps4 (W7 m ρ c) (Proc.devRef .tc main_v70) = _
  after_results_simp
  rw [W7_v58 m ρ c, e8]
  rfl

set_option maxHeartbeats 4000000 in
/-- The classifier's bias as a row. -/
theorem W8_v71 (c : Dev nD) : W8 m ρ c (Proc.devRef .tc main_v71) = val_main_v75 (F := Ideal) (a6 m c) := by
  obtain ⟨-, -, -, -, -, -, -, e6, -⟩ := carried7 m ρ c
  show StableHlo.after hostOps4 (W7 m ρ c) (Proc.devRef .tc main_v71) = _
  after_results_simp
  rw [e6]
  unfold val_main_v75
  exact row_of_vector (n := 10) (by decide) _ _ _

/-- THE RESULT: the last boundary's contents of the result buffer are the reference's last stage of the arguments. -/
theorem result_eq (c : Dev nD) :
    W9 m ρ c (Proc.devRef .tc main_v72)
      = val_main_v77 (F := Ideal) (a0 m c) (a1 m c) (a2 m c) (a3 m c) (a4 m c) (a5 m c) (a6 m c) (a7 m c) (a8 m c) := by
  obtain ⟨-, -, -, -, -, -, e5, -⟩ := carried8 m ρ c
  refine (W9_arr m ρ c 3).trans ?_
  refine (Classifier.value4 (V8 m ρ) c Cert.ReferenceIdeal.Facts₀.bcast_S1x10_S64x10_0_1).trans ?_
  dsimp only [V8]
  rw [W8_v70 m ρ c, W8_v71 m ρ c, e5]
  rfl

end Cert.KernelIdeal.Stages

end
-- ==== Proof.lean ====
/-
  A two-layer graph convolution with a mean pool and a linear classifier: the kernel program against the reference,
  over the extended reals.

  Both programs build the edge lists with self loops, the degree normalisation, and, per layer, gather the transformed
  node features along the source list, scale them by the edge weights and scatter-add them along the target list; both
  pool by the graph index and divide by the clamped counts. These host operations are the same in the two programs,
  line for line. They differ in five places, where the kernel program launches a row-tiled pipeline and the reference
  applies a host operation: the two dense products `x · W` (a matrix product into the zero accumulator per 2000-row
  block against one `dot_general`: the same sum over the contracted axis at every entry, the format changes of the
  operands being the identity), the two bias additions (the first followed by the maximum with zero), and the
  classifier `pooled · Wlin + blin`. Each region's output array is shown to be the reference's operation of the arrays
  the region finds (the three region modules); threading these through the host stretches gives the kernel program's
  result buffer as the reference's last stage of the same arguments. No law of the extended reals beyond that is used,
  and the precondition is never opened.

  The frames of the two kernel programs are the generated ones; the reference's frame is its generated run with the
  result dropped; the idealization rewrote nothing, so it is preserved trivially.
-/
import proofs.«108684_j16466904612871_1_alg».proof.Defs
import proofs.«108684_j16466904612871_1_alg».proof.Proof.Gen.Kernel
import proofs.«108684_j16466904612871_1_alg».proof.Proof.Gen.Kernel.Skeleton
import proofs.«108684_j16466904612871_1_alg».proof.Proof.Gen.Kernel.Launch
import proofs.«108684_j16466904612871_1_alg».proof.Proof.Gen.Kernel.Points
import proofs.«108684_j16466904612871_1_alg».proof.Proof.Gen.Kernel.Frame
import proofs.«108684_j16466904612871_1_alg».proof.Proof.Gen.KernelIdeal
import proofs.«108684_j16466904612871_1_alg».proof.Proof.Gen.KernelIdeal.Skeleton
import proofs.«108684_j16466904612871_1_alg».proof.Proof.Gen.KernelIdeal.Launch
import proofs.«108684_j16466904612871_1_alg».proof.Proof.Gen.KernelIdeal.Points
import proofs.«108684_j16466904612871_1_alg».proof.Proof.Gen.KernelIdeal.Frame
import proofs.«108684_j16466904612871_1_alg».proof.Proof.Gen.ReferenceIdeal
import proofs.«108684_j16466904612871_1_alg».proof.Proof.Gen.Pre_finite_inputs
import proofs.«108684_j16466904612871_1_alg».proof.Proof.Gen.ReferenceIdeal.Run
import proofs.«108684_j16466904612871_1_alg».proof.Proof.Gen.ReferenceIdeal.Read
import proofs.«108684_j16466904612871_1_alg».proof.Proof.KernelRun
import proofs.«108684_j16466904612871_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the kernel program's result
    buffer holds the reference's last stage of its arguments, and the reference's run ends at that stage of its own. -/
theorem algebraic : Cert.algebraic_KernelIdeal_ReferenceIdeal := by
  intro m ρ m' ρ' _ hagree
  refine ⟨fun c => Cert.KernelIdeal.Gen.W9 m ρ c (Proc.devRef .tc Cert.KernelIdeal.main_v72),
    Cert.KernelIdeal.Launched.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v77_eq, e0, e1, e2, e3, e4, e5, e6, e7, e8]
  exact (Cert.KernelIdeal.Stages.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
